-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x256x1024 : Shape := ⟨3, ![16, 256, 1024]⟩
abbrev S16x1024x256 : Shape := ⟨3, ![16, 1024, 256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_
  bcast_S_S16x1024x256 : S_.BroadcastsInDim S16x1024x256 (![] : Fin 0 → Fin S16x1024x256.rank)
  reducesTo_S16x1024x256_S_d0_1_2 : S16x1024x256.ReducesTo [0, 1, 2] S_

variable [Facts]

def fn {F : FTy → Type} [FloatOps F] (main_arg0 : FVec F S16x8192x256 .f32) (main_arg1 : FVec F S16x256x1024 .f32) (main_arg2 : FVec F S16x1024x256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S16x256x1024 .f32 := Host.absf main_arg1
  let main_cst_0 : FVec F S_ .f32 := constant S_ .f32 0x7F800000#32
  let main_v5 : FVec F S16x256x1024 .f32 := broadcastInDim S16x256x1024 ![] bcast_S_S16x256x1024 main_cst_0
  let main_v6 : IVec S16x256x1024 1 := cmpf .olt main_v4 main_v5
  let main_c_1 : IVec S_ 1 := constantI S_ 1 1#1
  let main_v7 : IVec S_ 1 := (fun x v => Host.reduce IntOp.andi x v reducesTo_S16x256x1024_S_d0_1_2 h_S_) main_v6 main_c_1
  let main_v8 : IVec S_ 1 := andi main_v3 main_v7
  let main_v9 : FVec F S16x1024x256 .f32 := Host.absf main_arg2
  let main_cst_2 : FVec F S_ .f32 := constant S_ .f32 0x7F800000#32
  let main_v10 : FVec F S16x1024x256 .f32 := broadcastInDim S16x1024x256 ![] bcast_S_S16x1024x256 main_cst_2
  let main_v11 : IVec S16x1024x256 1 := cmpf .olt main_v9 main_v10
  let main_c_3 : IVec S_ 1 := constantI S_ 1 1#1
  let main_v12 : IVec S_ 1 := (fun x v => Host.reduce IntOp.andi x v reducesTo_S16x1024x256_S_d0_1_2 h_S_) main_v11 main_c_3
  let main_v13 : IVec S_ 1 := andi main_v8 main_v12
  main_v13
-- ==== Kernel.lean ====
abbrev S16x8192x256 : Shape := ⟨3, ![16, 8192, 256]⟩
abbrev S16x256x1024 : Shape := ⟨3, ![16, 256, 1024]⟩
abbrev S16x1024x256 : Shape := ⟨3, ![16, 1024, 256]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16x8192x256, .f32⟩
  | .hbm, ⟨1, _⟩ => ⟨S16x256x1024, .f32⟩
  | .hbm, ⟨2, _⟩ => ⟨S16x1024x256, .f32⟩
  | .hbm, ⟨3, _⟩ => ⟨S16x8192x256, .f32⟩
  | .local _ .vmem, ⟨0, _⟩ => ⟨S1x1024x256, .f32⟩
  | .local _ .vmem, ⟨1, _⟩ => ⟨S1x1024x256, .f32⟩
  | .local _ .vmem, ⟨2, _⟩ => ⟨S1x256x1024, .f32⟩
  | .local _ .vmem, ⟨3, _⟩ => ⟨S1x256x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S1024x256_S1x1024x256 : S1024x256.ShapeCasts S1x1024x256
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x8192x256.size a
  hwx0_0 : ∀ i : grid0.Coords, EltTy.bits .f32 = 32 ∨ (Rect.block (s := S16x8192x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x256x1024.size a
  hwx0_1 : ∀ i : grid0.Coords, EltTy.bits .f32 = 32 ∨ (Rect.block (s := S16x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x256.size a
  hwx0_2 : ∀ i : grid0.Coords, EltTy.bits .f32 = 32 ∨ (Rect.block (s := S16x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S16x8192x256.size a
  hwx0_3 : ∀ i : grid0.Coords, EltTy.bits .f32 = 32 ∨ (Rect.block (s := S16x8192x256) S1x1024x256.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S16x256x1024 : Shape := ⟨3, ![16, 256, 1024]⟩
abbrev S16x1024x256 : Shape := ⟨3, ![16, 1024, 256]⟩
abbrev S16x8192x1024 : Shape := ⟨3, ![16, 8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x256x1024, .f32⟩
  | .hbm, ⟨2, _⟩ => ⟨S16x1024x256, .f32⟩
  | .hbm, ⟨3, _⟩ => ⟨S16x8192x1024, .f32⟩
  | .hbm, ⟨4, _⟩ => ⟨S16x8192x1024, .f32⟩
  | .hbm, ⟨5, _⟩ => ⟨S16x8192x1024, .f32⟩
  | .hbm, ⟨6, _⟩ => ⟨S_, .f32⟩
  | .hbm, ⟨7, _⟩ => ⟨S16x8192x1024, .f32⟩
  | .hbm, ⟨8, _⟩ => ⟨S16x8192x1024, .f32⟩
  | .hbm, ⟨9, _⟩ => ⟨S_, .f32⟩
  | .hbm, ⟨10, _⟩ => ⟨S16x8192x1024, .f32⟩
  | .hbm, ⟨11, _⟩ => ⟨S16x8192x1024, .f32⟩
  | .hbm, ⟨12, _⟩ => ⟨S16x8192x1024, .f32⟩
  | .hbm, ⟨13, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]

class Facts₀ : Prop where
  bcast_S_S16x8192x1024 : S_.BroadcastsInDim S16x8192x1024 (![] : Fin 0 → Fin S16x8192x1024.rank)
  dot_S16x8192x256_S16x256x1024_S16x8192x1024_2_1_1_2_0_0_wf : DotDims.WF S16x8192x256 S16x256x1024 S16x8192x1024 [2] [1] [1] [2] [0] [0]
  dot_S16x8192x1024_S16x1024x256_S16x8192x256_2_1_1_2_0_0_wf : DotDims.WF S16x8192x1024 S16x1024x256 S16x8192x256 [2] [1] [1] [2] [0] [0]

variable [Facts₀]

def dot_S16x8192x256_S16x256x1024_S16x8192x1024_2_1_1_2_0_0 : DotDims S16x8192x256 S16x256x1024 S16x8192x1024 where
  lhsContracting := [2]
  rhsContracting := [1]
  lhsNonContracting := [1]
  rhsNonContracting := [2]
  lhsBatch := [0]
  rhsBatch := [0]
  wf := dot_S16x8192x256_S16x256x1024_S16x8192x1024_2_1_1_2_0_0_wf
def dot_S16x8192x1024_S16x1024x256_S16x8192x256_2_1_1_2_0_0 : DotDims S16x8192x1024 S16x1024x256 S16x8192x256 where
  lhsContracting := [2]
  rhsContracting := [1]
  lhsNonContracting := [1]
  rhsNonContracting := [2]
  lhsBatch := [0]
  rhsBatch := [0]
  wf := dot_S16x8192x1024_S16x1024x256_S16x8192x256_2_1_1_2_0_0_wf

class Facts : Prop extends Facts₀ where

variable [Facts]
-- ==== Proof.MlpSpec.lean ====
/-
  The function both programs compute, written once over the extended reals.

  For a head `h`, a row `b` and an output column `d`,
    out[h, b, d] = ∑ e, silu (∑ k, x[h, b, k] · w1[h, k, e]) · w2[h, e, d],
  with `silu z = z · logistic z` and `logistic z = 1 / (1 + exp (-z))`. Sums over a finite index
  type in a commutative monoid do not depend on any order, so neither side's tiling shows up here.
-/
import Idealize.ShloMosaic.PureOps.Ideal
import Idealize.ShloMosaic.Lib.ValueIdx

noncomputable section

open scoped BigOperators

namespace Cert.MlpSpec

open Idealize.ShloMosaic Idealize.ShloMosaic.ValueIdx

/-- The activation: `z · logistic z`. -/
def silu (z : EReal) : EReal := z * Ideal.logistic z

/-- The hidden pre-activation of head `h`, row `b`, hidden unit `e`: the row of `x` against the column of `w1`. -/
def hidden (x : (⟨3, ![16, 8192, 256]⟩ : Shape).Idx → EReal) (w1 : (⟨3, ![16, 256, 1024]⟩ : Shape).Idx → EReal)
    (h : Fin 16) (b : Fin 8192) (e : Fin 1024) : EReal :=
  ∑ k : Fin 256, x (ix3 h b k) * w1 (ix3 h k e)

/-- The per-head two-layer perceptron at one output entry. -/
def mlpAt (x : (⟨3, ![16, 8192, 256]⟩ : Shape).Idx → EReal) (w1 : (⟨3, ![16, 256, 1024]⟩ : Shape).Idx → EReal)
    (w2 : (⟨3, ![16, 1024, 256]⟩ : Shape).Idx → EReal) (h : Fin 16) (b : Fin 8192) (d : Fin 256) : EReal :=
  ∑ e : Fin 1024, silu (hidden x w1 h b e) * w2 (ix3 h e d)

/-- The whole result array. -/
def mlp (x : (⟨3, ![16, 8192, 256]⟩ : Shape).Idx → EReal) (w1 : (⟨3, ![16, 256, 1024]⟩ : Shape).Idx → EReal)
    (w2 : (⟨3, ![16, 1024, 256]⟩ : Shape).Idx → EReal) : (⟨3, ![16, 8192, 256]⟩ : Shape).Idx → EReal :=
  fun i => mlpAt x w1 w2 (i 0) (i 1) (i 2)

theorem mlp_ix3 (x : (⟨3, ![16, 8192, 256]⟩ : Shape).Idx → EReal) (w1 : (⟨3, ![16, 256, 1024]⟩ : Shape).Idx → EReal)
    (w2 : (⟨3, ![16, 1024, 256]⟩ : Shape).Idx → EReal) (h : Fin 16) (b : Fin 8192) (d : Fin 256) :
    mlp x w1 w2 (ix3 h b d) = mlpAt x w1 w2 h b d := rfl

end Cert.MlpSpec

end
-- ==== Proof.RefIsMlp.lean ====
/-
  The reference's result, read one operation at a time, is the specification `MlpSpec.mlp`.

  The first batched product at `(h, b, e)` is the row of `x[h]` against the column of `w1[h]`; jax's
  expansion of the logistic function, `1 / (1 + exp (-z))` with the quotient taken by the host's
  division, is `Ideal.logistic z` by definition; and the second batched product at `(h, b, d)` sums
  the activated hidden row against the column of `w2[h]`.
-/
import proofs.«135589_j14723147891334_1_alg».proof.Proof.Gen.ReferenceIdeal.Read
import proofs.«135589_j14723147891334_1_alg».proof.Proof.MlpSpec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.MlpSpec

/-- The operand indices of the first product, by coordinates. -/
theorem lidx0 (i : S16x8192x1024.Idx) (k : Fin 256) : lidx_main_v0 i k = ix3 (i 0) (i 1) k :=
  funext fun a => Fin.ext (by match a with | ⟨0, _⟩ => rfl | ⟨1, _⟩ => rfl | ⟨2, _⟩ => rfl)
theorem ridx0 (i : S16x8192x1024.Idx) (k : Fin 256) : ridx_main_v0 i k = ix3 (i 0) k (i 2) :=
  funext fun a => Fin.ext (by match a with | ⟨0, _⟩ => rfl | ⟨1, _⟩ => rfl | ⟨2, _⟩ => rfl)
/-- The operand indices of the second product, by coordinates. -/
theorem lidx2 (i : S16x8192x256.Idx) (e : Fin 1024) : lidx_main_v2 i e = ix3 (i 0) (i 1) e :=
  funext fun a => Fin.ext (by match a with | ⟨0, _⟩ => rfl | ⟨1, _⟩ => rfl | ⟨2, _⟩ => rfl)
theorem ridx2 (i : S16x8192x256.Idx) (e : Fin 1024) : ridx_main_v2 i e = ix3 (i 0) e (i 2) :=
  funext fun a => Fin.ext (by match a with | ⟨0, _⟩ => rfl | ⟨1, _⟩ => rfl | ⟨2, _⟩ => rfl)

/-- The first product at an entry is the hidden pre-activation. -/
theorem pre_eq (x : S16x8192x256.Idx → EReal) (w1 : S16x256x1024.Idx → EReal) (h : Fin 16) (b : Fin 8192) (e : Fin 1024) :
    val_main_v0 (F := Ideal) x w1 (ix3 h b e) = hidden x w1 h b e := by
  rw [val_main_v0_apply]
  simp only [lidx0, ridx0]
  rfl

/-- The activated hidden entry: `z · (1 / (1 + exp (-z)))` is `silu z`. -/
theorem act_eq (x : S16x8192x256.Idx → EReal) (w1 : S16x256x1024.Idx → EReal) (h : Fin 16) (b : Fin 8192) (e : Fin 1024) :
    val_main_v1 (F := Ideal) x w1 (ix3 h b e) = silu (hidden x w1 h b e) := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply, pre_eq]
  simp only [Ideal.mulf_def, Ideal.hostDivf_def, Ideal.addf_def, Ideal.hostUnary_exp_def, Ideal.hostNegf_def,
    Ideal.negf_def, Ideal.ofBits_def, Ideal.ofBits_one_f32, silu, Ideal.logistic]

/-- The reference's result array is the specification. -/
theorem ref_eq (x : S16x8192x256.Idx → EReal) (w1 : S16x256x1024.Idx → EReal) (w2 : S16x1024x256.Idx → EReal) :
    val_main_v2 (F := Ideal) x w1 w2 = mlp x w1 w2 := by
  funext i
  obtain ⟨h, b, d, rfl⟩ : ∃ (h : Fin 16) (b : Fin 8192) (d : Fin 256), i = ix3 h b d := ⟨i 0, i 1, i 2, eq_ix3 i⟩
  rw [val_main_v2_apply, mlp_ix3]
  unfold mlpAt
  refine Finset.sum_congr rfl fun e _ => ?_
  rw [lidx2, ridx2]
  exact congrArg (· * w2 (ix3 h e d)) (act_eq x w1 h b e)

end Cert.ReferenceIdeal.RefValue

end
-- ==== Proof.BodyValue.lean ====
/-
  What the kernel body stores, read at one entry of its block.

  The body loads a `[1, 1024, 256]` slab of `x`, the head's `[1, 256, 1024]` slab of `w1` and its
  `[1, 1024, 256]` slab of `w2`, drops the unit axis, and forms `silu (x · w1) · w2` with both products
  accumulated into zero. Over the extended reals the changes of float format are the identity, a
  product into a zero accumulator at `(r, c)` is the sum over the contracted coordinate of the
  operands' products, and the logistic operation is `1 / (1 + exp (-z))`. So the stored entry
  `(u, r, d)` is `∑ e, silu (∑ k, x[0, r, k] · w1[0, k, e]) · w2[0, e, d]`.
-/
import proofs.«135589_j14723147891334_1_alg».proof.Proof.Gen.KernelIdeal.Skeleton
import proofs.«135589_j14723147891334_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.MlpSpec

/-! ## The operand indices of the two products, axis by axis -/

theorem lhs_pre_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_pre_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_pre_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_pre_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

theorem lhs_out_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_out_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_out_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_out_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-! ## The two products at an entry -/

/-- The first product, into zero, at `(r, c)`: the row of the left operand against the column of the right. -/
theorem matmul_pre_apply (a : FVec Ideal S1024x256 .bf16) (b : FVec Ideal S256x1024 .bf16) (r : Fin 1024) (c : Fin 1024) :
    matmul dot_S1024x256_S256x1024_S1024x1024_1_0_0_1_n_n none a b (constant S1024x1024 .f32 0x00000000#32) (ix2 r c) = ∑ k : Fin 256, a (ix2 r k) * b (ix2 k c) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c) ((contrEquiv1 dot_S1024x256_S256x1024_S1024x1024_1_0_0_1_n_n 256 rfl rfl).symm k) = ix2 r k := funext fun x => Fin.ext (by
    match x with
    | ⟨0, _⟩ => exact lhs_pre_0 _ _
    | ⟨1, _⟩ => exact (lhs_pre_1 _ _).trans hk)
  have er : dot_S1024x256_S256x1024_S1024x1024_1_0_0_1_n_n.rhsIdx (ix2 r c) ((contrEquiv1 dot_S1024x256_S256x1024_S1024x1024_1_0_0_1_n_n 256 rfl rfl).symm k) = ix2 k c := funext fun x => Fin.ext (by
    match x with
    | ⟨0, _⟩ => exact (rhs_pre_0 _ _).trans hk
    | ⟨1, _⟩ => exact rhs_pre_1 _ _)
  rw [el, er]

/-- The second product, into zero, at `(r, c)`. -/
theorem matmul_out_apply (a : FVec Ideal S1024x1024 .bf16) (b : FVec Ideal S1024x256 .bf16) (r : Fin 1024) (c : Fin 256) :
    matmul dot_S1024x1024_S1024x256_S1024x256_1_0_0_1_n_n none a b (constant S1024x256 .f32 0x00000000#32) (ix2 r c) = ∑ k : Fin 1024, a (ix2 r k) * b (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c) ((contrEquiv1 dot_S1024x1024_S1024x256_S1024x256_1_0_0_1_n_n 1024 rfl rfl).symm k) = ix2 r k := funext fun x => Fin.ext (by
    match x with
    | ⟨0, _⟩ => exact lhs_out_0 _ _
    | ⟨1, _⟩ => exact (lhs_out_1 _ _).trans hk)
  have er : dot_S1024x1024_S1024x256_S1024x256_1_0_0_1_n_n.rhsIdx (ix2 r c) ((contrEquiv1 dot_S1024x1024_S1024x256_S1024x256_1_0_0_1_n_n 1024 rfl rfl).symm k) = ix2 k c := funext fun x => Fin.ext (by
    match x with
    | ⟨0, _⟩ => exact (rhs_out_0 _ _).trans hk
    | ⟨1, _⟩ => exact rhs_out_1 _ _)
  rw [el, er]

/-! ## The stored block at an entry -/

/-- The body's one store, at entry `(u, r, d)` of the block, over the three loaded slabs. -/
theorem pay_apply (v0 : Vec Ideal S1x1024x256 .f32) (v3 : Vec Ideal S1x256x1024 .f32) (v10 : Vec Ideal S1x1024x256 .f32)
    (u : Fin 1) (r : Fin 1024) (d : Fin 256) :
    k0_pay1 (F := Ideal) v0 v3 v10 (ix3 u r d)
      = ∑ e : Fin 1024, silu (∑ k : Fin 256, v0 (ix3 (0 : Fin 1) r k) * v3 (ix3 (0 : Fin 1) k e)) * v10 (ix3 (0 : Fin 1) e d) := by
  unfold k0_pay1
  refine (shapeCast_ab_1ab_apply _ _ u r d).trans ?_
  refine (matmul_out_apply _ _ r d).trans ?_
  refine Finset.sum_congr rfl fun e _ => ?_
  have hz : matmul (F := Ideal) dot_S1024x256_S256x1024_S1024x1024_1_0_0_1_n_n none
        (truncf .bf16 (shapeCast S1024x256 v0 shapeCasts_S1x1024x256_S1024x256) bitsLt_bf16_f32)
        (truncf .bf16 (shapeCast S256x1024 v3 shapeCasts_S1x256x1024_S256x1024) bitsLt_bf16_f32)
        (constant S1024x1024 .f32 0x00000000#32) (ix2 r e)
      = ∑ k : Fin 256, v0 (ix3 (0 : Fin 1) r k) * v3 (ix3 (0 : Fin 1) k e) := by
    refine (matmul_pre_apply _ _ r e).trans ?_
    refine Finset.sum_congr rfl fun k _ => ?_
    show shapeCast S1024x256 v0 shapeCasts_S1x1024x256_S1024x256 (ix2 r k) * shapeCast S256x1024 v3 shapeCasts_S1x256x1024_S256x1024 (ix2 k e) = _
    rw [shapeCast_1ab_ab_apply, shapeCast_1ab_ab_apply]
  have hw : shapeCast S1024x256 v10 shapeCasts_S1x1024x256_S1024x256 (ix2 e d) = v10 (ix3 (0 : Fin 1) e d) :=
    shapeCast_1ab_ab_apply _ _ e d
  show (matmul (F := Ideal) dot_S1024x256_S256x1024_S1024x1024_1_0_0_1_n_n none
        (truncf .bf16 (shapeCast S1024x256 v0 shapeCasts_S1x1024x256_S1024x256) bitsLt_bf16_f32)
        (truncf .bf16 (shapeCast S256x1024 v3 shapeCasts_S1x256x1024_S256x1024) bitsLt_bf16_f32)
        (constant S1024x1024 .f32 0x00000000#32) (ix2 r e)
      * Ideal.logistic (matmul (F := Ideal) dot_S1024x256_S256x1024_S1024x1024_1_0_0_1_n_n none
        (truncf .bf16 (shapeCast S1024x256 v0 shapeCasts_S1x1024x256_S1024x256) bitsLt_bf16_f32)
        (truncf .bf16 (shapeCast S256x1024 v3 shapeCasts_S1x256x1024_S256x1024) bitsLt_bf16_f32)
        (constant S1024x1024 .f32 0x00000000#32) (ix2 r e)))
      * shapeCast S1024x256 v10 shapeCasts_S1x1024x256_S1024x256 (ix2 e d) = _
  rw [hz, hw]
  rfl

end Cert.KernelIdeal.BodyValue

end
-- ==== Proof.MlpValue.lean ====
/-
  The kernel's result array is the specification `MlpSpec.mlp` of the argument arrays.

  The grid has a point per head `h` and row tile `b` (16 × 8 points). At a point the body sees rows
  `1024·b … 1024·b + 1023` of `x[h]` and all of `w1[h]` and `w2[h]`, and writes back rows
  `1024·b … 1024·b + 1023` of `out[h]`. An output entry `(h, 1024·b + r, d)` depends only on row
  `1024·b + r` of `x[h]` and on the two weight slabs of head `h`, which are exactly what the point
  loaded, so the written block is the specification's block. The 128 blocks tile the output array:
  the entry `(h, i, d)` lies in the block of the point with head `h` and row tile `i / 1024`.
-/
import proofs.«135589_j14723147891334_1_alg».proof.Proof.Gen.KernelIdeal.Value
import proofs.«135589_j14723147891334_1_alg».proof.Proof.BodyValue

set_option maxRecDepth 16384

noncomputable section

open scoped BigOperators

namespace Cert.KernelIdeal.MlpValue

open Cert.KernelIdeal Cert.KernelIdeal.Gen Idealize.ShloMosaic Idealize.ShloMosaic.TcCoe Idealize.SL.Sem
open Idealize.ShloMosaic.ValueIdx Cert.MlpSpec
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- An entry of the stored block is the specification at an output index `i`, as soon as the three
    loaded slabs are the rows of the arrays that `i` depends on. -/
theorem entry_eq (X : S16x8192x256.Idx → EReal) (W1 : S16x256x1024.Idx → EReal) (W2 : S16x1024x256.Idx → EReal)
    (x0 : Vec Ideal S1x1024x256 .f32) (x1 : Vec Ideal S1x256x1024 .f32) (x2 : Vec Ideal S1x1024x256 .f32)
    (i : S16x8192x256.Idx) (u : Fin 1) (r : Fin 1024) (d : Fin 256)
    (h0 : ∀ k : Fin 256, x0 (ix3 (0 : Fin 1) r k) = X (ix3 (i 0) (i 1) k))
    (h1 : ∀ (k : Fin 256) (e : Fin 1024), x1 (ix3 (0 : Fin 1) k e) = W1 (ix3 (i 0) k e))
    (h2 : ∀ e : Fin 1024, x2 (ix3 (0 : Fin 1) e d) = W2 (ix3 (i 0) e (i 2))) :
    k0_pay1 (F := Ideal) x0 x1 x2 (ix3 u r d) = mlp X W1 W2 i := by
  rw [BodyValue.pay_apply]
  unfold mlp mlpAt MlpSpec.hidden
  refine Finset.sum_congr rfl fun e _ => ?_
  rw [h2 e]
  refine congrArg (fun z => silu z * W2 (ix3 (i 0) e (i 2))) ?_
  exact Finset.sum_congr rfl fun k _ => by rw [h0 k, h1 k e]

/-- The printed index maps over the grid: the `x` window moves with the output window, the two weight
    windows follow its head and stay at block 0 on the other axes. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 15 ∧ win0_3.index t (1 : Fin 3) ≤ 7 :=
  (by decide +kernel : ∀ t : Fin grid0.N, _)

/-- Every (head, row tile) pair is some point's output block. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- What point `t` writes back is block `t` of the specification of the arrays as the region finds them. -/
theorem flushed_eq (c : Dev nD) (t : Fin cfg0.N) :
    (dats m 0 c).flushed 3 t
      = ((cfg0.win 3).blk t).view.read (Elt Ideal) (mlp (V m c main_arg0) (V m c main_arg1) (V m c main_arg2)) := by
  rw [Value.flushed3]
  unfold out0_3
  rw [View.canon_unit_zero zero_offsets]
  simp only [View.ld_unit_zero (S := S1x1024x256) zero_offsets, View.ld_unit_zero (S := S1x256x1024) zero_offsets]
  obtain ⟨e00, e01, e02, e10, e11, e12, e20, e21, e22, e32, b0, b1⟩ := idx_facts t
  funext j
  obtain ⟨u, r, d, rfl⟩ : ∃ (u : Fin 1) (r : Fin 1024) (d : Fin 256), j = ix3 u r d := ⟨j 0, j 1, j 2, eq_ix3 j⟩
  show k0_pay1 (F := Ideal) (iblk m c 0 t) (iblk m c 1 t) (iblk m c 2 t) (ix3 u r d)
    = mlp (V m c main_arg0) (V m c main_arg1) (V m c main_arg2) (((cfg0.win 3).blk t).view.emb (ix3 u r d))
  have hu : u.val = 0 := by omega
  refine entry_eq (V m c main_arg0) (V m c main_arg1) (V m c main_arg2) _ _ _ _ u r d ?_ ?_ ?_
  · intro k
    show V m c main_arg0 (((cfg0.win 0).blk t).view.emb (ix3 (0 : Fin 1) r k)) = V m c main_arg0 _
    refine congrArg _ (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 1024 + 1 * r.val = win0_3.index t (1 : Fin 3) * 1024 + 1 * r.val; omega
    | ⟨2, _⟩ => show win0_0.index t (2 : Fin 3) * 256 + 1 * k.val = k.val; omega
  · intro k e
    show V m c main_arg1 (((cfg0.win 1).blk t).view.emb (ix3 (0 : Fin 1) k e)) = V m c main_arg1 _
    refine congrArg _ (funext fun a => Fin.ext ?_)
    match a with
    | ⟨0, _⟩ => show win0_1.index t (0 : Fin 3) * 1 + 1 * 0 = win0_3.index t (0 : Fin 3) * 1 + 1 * u.val; omega
    | ⟨1, _⟩ => show win0_1.index t (1 : Fin 3) * 256 + 1 * k.val = k.val; omega
    | ⟨2, _⟩ => show win0_1.index t (2 : Fin 3) * 1024 + 1 * e.val = e.val; omega
  · intro e
    show V m c main_arg2 (((cfg0.win 2).blk t).view.emb (ix3 (0 : Fin 1) e d)) = V m c main_arg2 _
    refine congrArg _ (funext fun a => Fin.ext ?_)
    match a with
    | ⟨0, _⟩ => show win0_2.index t (0 : Fin 3) * 1 + 1 * 0 = win0_3.index t (0 : Fin 3) * 1 + 1 * u.val; omega
    | ⟨1, _⟩ => show win0_2.index t (1 : Fin 3) * 1024 + 1 * e.val = e.val; omega
    | ⟨2, _⟩ => show win0_2.index t (2 : Fin 3) * 256 + 1 * d.val = win0_3.index t (2 : Fin 3) * 256 + 1 * d.val; omega

/-- An index of the output array is in point `t`'s block iff each coordinate is in the block's range. -/
theorem mem_blk (t : Fin cfg0.N) (i : S16x8192x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v0).slice (win0_3.rect t)).set ↔ _
  rw [View.set_slice_whole, Rect.mem_set_unit]
  exact Iff.rfl

/-- The blocks tile the output: entry `(h, i, d)` is in the block of head `h`, row tile `i / 1024`. -/
theorem cover (i : S16x8192x256.Idx) :
    ∃ t : Fin cfg0.N, (cfg0.win 3).flush t = true ∧ i ∈ ((cfg0.win 3).blk t).view.set := by
  have hi0 : (i 0).val < 16 := (i 0).isLt
  have hi1 : (i 1).val < 8192 := (i 1).isLt
  have hi2 : (i 2).val < 256 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-- The output array after the run is the specification of the argument arrays. -/
theorem final (c : Dev nD) :
    (dats m 0 c).arrAt 3 cfg0.N
      = mlp (m ((c : Thread nD τ).loc main_arg0)) (m ((c : Thread nD τ).loc main_arg1)) (m ((c : Thread nD τ).loc main_arg2)) :=
  (dats m 0 c).arrAt_eq_of_cover 3 (mlp (V m c main_arg0) (V m c main_arg1) (V m c main_arg2))
    (fun t _ => flushed_eq m c t) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v0)
        = mlp (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.MlpValue

end
-- ==== Proof.lean ====
/-
  The certificate of the per-head two-layer perceptron `out[h] = silu (x[h] · w1[h]) · w2[h]`.

  The three frames: the two kernel programs run by their generated frame proofs; the reference, a
  straight-line host program, by its generated run with the result dropped. The idealization rewrote
  nothing, so `preserves` has no conjunct. For `algebraic`: at the extended reals the kernel's result
  array is `MlpSpec.mlp` of its arguments (the stored block read entry by entry, and the 128 blocks
  tiling the array), and the reference's result is the same function (its two batched products read
  as sums and jax's expansion of the logistic function recognised); no law beyond reading both sides
  as the same finite sums is needed, so the finiteness of the inputs is not used.
-/
import proofs.«135589_j14723147891334_1_alg».proof.Defs
import proofs.«135589_j14723147891334_1_alg».proof.Proof.Gen.Kernel
import proofs.«135589_j14723147891334_1_alg».proof.Proof.Gen.Kernel.Skeleton
import proofs.«135589_j14723147891334_1_alg».proof.Proof.Gen.Kernel.Launch
import proofs.«135589_j14723147891334_1_alg».proof.Proof.Gen.Kernel.Points
import proofs.«135589_j14723147891334_1_alg».proof.Proof.Gen.Kernel.Frame
import proofs.«135589_j14723147891334_1_alg».proof.Proof.Gen.KernelIdeal
import proofs.«135589_j14723147891334_1_alg».proof.Proof.Gen.KernelIdeal.Skeleton
import proofs.«135589_j14723147891334_1_alg».proof.Proof.Gen.KernelIdeal.Launch
import proofs.«135589_j14723147891334_1_alg».proof.Proof.Gen.KernelIdeal.Points
import proofs.«135589_j14723147891334_1_alg».proof.Proof.Gen.KernelIdeal.Frame
import proofs.«135589_j14723147891334_1_alg».proof.Proof.Gen.ReferenceIdeal
import proofs.«135589_j14723147891334_1_alg».proof.Proof.Gen.Pre_finite_inputs
import proofs.«135589_j14723147891334_1_alg».proof.Proof.Gen.KernelIdeal.Value
import proofs.«135589_j14723147891334_1_alg».proof.Proof.Gen.ReferenceIdeal.Run
import proofs.«135589_j14723147891334_1_alg».proof.Proof.Gen.ReferenceIdeal.Read
import proofs.«135589_j14723147891334_1_alg».proof.Proof.MlpSpec
import proofs.«135589_j14723147891334_1_alg».proof.Proof.RefIsMlp
import proofs.«135589_j14723147891334_1_alg».proof.Proof.BodyValue
import proofs.«135589_j14723147891334_1_alg».proof.Proof.MlpValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at `MlpSpec.mlp` of arguments that agree. -/
theorem algebraic : Cert.algebraic_KernelIdeal_ReferenceIdeal := by
  intro m ρ m' ρ' _ hagree
  refine ⟨_, Cert.KernelIdeal.MlpValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
